-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x4096 : Shape := ⟨3, ![4, 8192, 4096]⟩
abbrev S4096 : Shape := ⟨1, ![4096]⟩
abbrev S_ : Shape := ⟨0, ![]⟩

class Facts : Prop where
  bcast_S_S4x8192x4096 : S_.BroadcastsInDim S4x8192x4096 (![] : Fin 0 → Fin S4x8192x4096.rank)
  reducesTo_S4x8192x4096_S_d0_1_2 : S4x8192x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x8192x4096 .f32) (main_arg1 : FVec F S4096 .f32) : IVec S_ 1 :=
  let main_v0 : FVec F S4x8192x4096 .f32 := Host.absf main_arg0
  let main_cst : FVec F S_ .f32 := constant S_ .f32 0x7F800000#32
  let main_v1 : FVec F S4x8192x4096 .f32 := broadcastInDim S4x8192x4096 ![] bcast_S_S4x8192x4096 main_cst
  let main_v2 : IVec S4x8192x4096 1 := cmpf .olt main_v0 main_v1
  let main_c : IVec S_ 1 := constantI S_ 1 1#1
  let main_v3 : IVec S_ 1 := (fun x v => Host.reduce IntOp.andi x v reducesTo_S4x8192x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S4x8192x4096 : Shape := ⟨3, ![4, 8192, 4096]⟩
abbrev S4096 : Shape := ⟨1, ![4096]⟩
abbrev S8192x4096 : Shape := ⟨2, ![8192, 4096]⟩
abbrev S4x128x4096 : Shape := ⟨3, ![4, 128, 4096]⟩
abbrev S128x4096 : Shape := ⟨2, ![128, 4096]⟩
abbrev S128 : Shape := ⟨1, ![128]⟩
abbrev S128x1 : Shape := ⟨2, ![128, 1]⟩
abbrev S1x4096 : Shape := ⟨2, ![1, 4096]⟩

abbrev nBuf : Space → Nat
  | .hbm => 3
  | .vmem => 5
  | .smem => 0
  | _ => 0

abbrev bufTy : (tb : Table) → Fin (tcTables nBuf tb) → BufTy
  | .hbm, ⟨0, _⟩ => ⟨S4x8192x4096, .f32⟩
  | .hbm, ⟨1, _⟩ => ⟨S4096, .f32⟩
  | .hbm, ⟨2, _⟩ => ⟨S8192x4096, .f32⟩
  | .local _ .vmem, ⟨0, _⟩ => ⟨S4x128x4096, .f32⟩
  | .local _ .vmem, ⟨1, _⟩ => ⟨S4x128x4096, .f32⟩
  | .local _ .vmem, ⟨2, _⟩ => ⟨S4096, .f32⟩
  | .local _ .vmem, ⟨3, _⟩ => ⟨S128x4096, .f32⟩
  | .local _ .vmem, ⟨4, _⟩ => ⟨S128x4096, .f32⟩
  | _, _ => ⟨S4x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4x128x4096_S4x128x4096_0_0_0 : ∀ a, (![0, 0, 0] : Fin 3 → Nat) a + S4x128x4096.size a ≤ S4x128x4096.size a
  h_S4x128x4096 : 0 < S4x128x4096.numel
  reduces_S4x128x4096_S128x4096 : S4x128x4096.Reduces [0] S128x4096
  reduces_S128x4096_S128 : S128x4096.Reduces [1] S128
  shapeCasts_S128_S128x1 : S128.ShapeCasts S128x1
  broadcasts_S128x1_S128x4096 : S128x1.Broadcasts S128x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S128x4096 : S1x4096.Broadcasts S128x4096
  inb_S128x4096_S128x4096_0_0 : ∀ a, (![0, 0] : Fin 2 → Nat) a + S128x4096.size a ≤ S128x4096.size a
  h_S128x4096 : 0 < S128x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x4096.size a ≤ S4x8192x4096.size a
  hwx0_0 : ∀ i : grid0.Coords, EltTy.bits .f32 = 32 ∨ (Rect.block (s := S4x8192x4096) S4x128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S4096.size a
  hwx0_1 : ∀ i : grid0.Coords, EltTy.bits .f32 = 32 ∨ (Rect.block (s := S4096) S4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S8192x4096.size a
  hwx0_2 : ∀ i : grid0.Coords, EltTy.bits .f32 = 32 ∨ (Rect.block (s := S8192x4096) S128x4096.size (cc0_transform_2 i) (hinb0_2 i)).WholeWords (EltTy.packing .f32)

variable [Facts₀]

abbrev win0_0 : Pipeline.Window sig grid0 :=
  Pipeline.Window.ofSpec (Memref.whole main_arg0) S4x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x4096 : Shape := ⟨3, ![4, 8192, 4096]⟩
abbrev S4096 : Shape := ⟨1, ![4096]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4x8192x4096, .f32⟩
  | .hbm, ⟨1, _⟩ => ⟨S4096, .f32⟩
  | .hbm, ⟨2, _⟩ => ⟨S_, .f32⟩
  | .hbm, ⟨3, _⟩ => ⟨S4x8192x4096, .f32⟩
  | .hbm, ⟨4, _⟩ => ⟨S4x8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | _, _ => ⟨S4x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S4x8192x4096 : S_.BroadcastsInDim S4x8192x4096 (![] : Fin 0 → Fin S4x8192x4096.rank)
  reducesTo_S4x8192x4096_S8192x4096_d0 : S4x8192x4096.ReducesTo [0] S8192x4096
  h_S_ : 0 < S_.numel
  reducesTo_S8192x4096_S8192_d1 : S8192x4096.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)

variable [Facts₀]

class Facts : Prop extends Facts₀ where

variable [Facts]
-- ==== Proof.ReluSumNorm.lean ====
/-
  The function both programs compute, index by index over the extended reals.

  For activations `x : [4, 8192, 4096]` (four ranks' partial activations) and a gain `w : [4096]`:
    * `rankSum x r j  = ∑ p < 4, max (x[p, r, j]) 0`  — rectify each rank's partial activation, then sum over the ranks;
    * `meanSquare x r = (∑ j < 4096, rankSum x r j · rankSum x r j) / 4096`  — the mean square of row `r`;
    * `normed x w [r, j] = (rankSum x r j · rsqrt (meanSquare x r + ε)) · w[j]`.
  The divisor 4096 and ε stay as the f32 words both programs print (the same word on both sides is never evaluated);
  the zero the rectifier compares with, and the zero a sum starts from, is the extended real `0`.
  No law of arithmetic joins the two programs: they are this one expression, the sums taken over the same index sets, the
  products grouped the same way. So nothing here needs the inputs finite.
-/
import Idealize.ShloMosaic.PureOps.Ideal
import Idealize.ShloMosaic.Lib.ValueIdx

noncomputable section

open scoped BigOperators

namespace Cert.ReluSumNorm

open Idealize.ShloMosaic Idealize.ShloMosaic.ValueIdx

/-- The activations' shape: rank, token, hidden. -/
abbrev Acts : Shape := ⟨3, ![4, 8192, 4096]⟩
/-- The gain's shape. -/
abbrev Gain : Shape := ⟨1, ![4096]⟩
/-- The result's shape: token, hidden. -/
abbrev Rows : Shape := ⟨2, ![8192, 4096]⟩

/-- The rectified partial activations summed over the four ranks, at token `r` and hidden index `j`. -/
def rankSum (x : Acts.Idx → EReal) (r : Fin 8192) (j : Fin 4096) : EReal :=
  ∑ p : Fin 4, max (x (ix3 p r j)) 0

/-- The mean of the squares of row `r` of the rank sum. -/
def meanSquare (x : Acts.Idx → EReal) (r : Fin 8192) : EReal :=
  Ideal.div (∑ j : Fin 4096, rankSum x r j * rankSum x r j) (Ideal.ofBits .f32 0x45800000#32)

/-- The rank sum, scaled row by row by the reciprocal root of the row's mean square plus ε, times the gain. -/
def normed (x : Acts.Idx → EReal) (w : Gain.Idx → EReal) : Rows.Idx → EReal := fun i =>
  rankSum x (i 0) (i 1) * Ideal.rsqrt (meanSquare x (i 0) + Ideal.ofBits .f32 0x358637BD#32) * w (ix1 (i 1))

end Cert.ReluSumNorm

end
-- ==== Proof.KernelBlock.lean ====
/-
  One grid point of the kernel. The body loads a block of 128 tokens — all four ranks, the whole hidden axis — and the
  whole gain, and stores one block of 128 rows. If the loaded block holds tokens `rowOf 0 … rowOf 127` of the activations `x`
  and the loaded gain is `w`, the stored block is those rows of `normed x w`: the body's first reduction (over the rank
  axis of the rectified block) is the rank sum, its second (over the hidden axis of the squares) the row's sum of squares,
  and a row's normalisation only ever reads that row. Both reductions start from the zero word, so they are plain sums.
-/
import proofs.«127439_j69784628625430_1_alg».proof.Proof.Gen.KernelIdeal.Value
import proofs.«127439_j69784628625430_1_alg».proof.Proof.ReluSumNorm
import Idealize.ShloMosaic.PureOps.Ideal.Laws

noncomputable section

open scoped BigOperators

namespace Cert.KernelIdeal.Block

open Cert.KernelIdeal Cert.KernelIdeal.Gen Cert.KernelIdeal.Value Idealize.ShloMosaic Idealize.ShloMosaic.ValueIdx Cert.ReluSumNorm

/-- The body's first reduction of a loaded block: the rectified block summed over the rank axis. -/
abbrev blockRankSum (P0 : FVec Ideal S4x128x4096 .f32) : FVec Ideal S128x4096 .f32 :=
  multiReduction .add [0] S128x4096 (maximumf P0 (broadcast S4x128x4096 (Scalar.ofBits .f32 0x00000000#32))) 0x00000000#32 reduces_S4x128x4096_S128x4096 (.inl rfl) rfl

/-- The body's second reduction: each row's sum of the squares of the first. -/
abbrev blockSquareSum (P0 : FVec Ideal S4x128x4096 .f32) : FVec Ideal S128 .f32 :=
  multiReduction .add [1] S128 (mulf (blockRankSum P0) (blockRankSum P0)) 0x00000000#32 reduces_S128x4096_S128 (.inl rfl) rfl

variable (P0 : FVec Ideal S4x128x4096 .f32) (x : Acts.Idx → EReal) (rowOf : Fin 128 → Fin 8192)

/-- Row `a` of the block's first reduction is the rank sum of token `rowOf a`. -/
theorem blockRankSum_eq (h0 : ∀ (p : Fin 4) (a : Fin 128) (j : Fin 4096), P0 (ix3 p a j) = x (ix3 p (rowOf a) j))
    (a : Fin 128) (j : Fin 4096) : blockRankSum P0 (ix2 a j) = rankSum x (rowOf a) j := by
  refine (Ideal.multiReduction_add_single _ _ _ _ _ _).trans ?_
  unfold rankSum
  refine Finset.sum_congr rfl fun p _ => ?_
  have e : reduces_S4x128x4096_S128x4096.lift (ix2 a j) p = ix3 p a j :=
    funext fun d => Fin.ext (by match d with | ⟨0, _⟩ => rfl | ⟨1, _⟩ => rfl | ⟨2, _⟩ => rfl)
  exact congrArg₂ max ((congrArg P0 e).trans (h0 p a j)) Ideal.ofBits_zero_f32

/-- Row `a` of the block's second reduction is the sum of squares of token `rowOf a`'s rank sum. -/
theorem blockSquareSum_eq (h0 : ∀ (p : Fin 4) (a : Fin 128) (j : Fin 4096), P0 (ix3 p a j) = x (ix3 p (rowOf a) j))
    (a : Fin 128) : blockSquareSum P0 (ix1 a) = ∑ j : Fin 4096, rankSum x (rowOf a) j * rankSum x (rowOf a) j := by
  refine (Ideal.multiReduction_add_single _ _ _ _ _ _).trans ?_
  refine Finset.sum_congr rfl fun k _ => ?_
  have e : reduces_S128x4096_S128.lift (ix1 a) k = ix2 a k :=
    funext fun d => Fin.ext (by match d with | ⟨0, _⟩ => rfl | ⟨1, _⟩ => rfl)
  have hk : blockRankSum P0 (reduces_S128x4096_S128.lift (ix1 a) k) = rankSum x (rowOf a) k :=
    (congrArg (blockRankSum P0) e).trans (blockRankSum_eq P0 x rowOf h0 a k)
  exact congrArg₂ (· * ·) hk hk

/-- THE STORED BLOCK: row `a`, hidden index `j` of what the body stores is `normed x w` at token `rowOf a`. -/
theorem stored_eq (P1 : FVec Ideal S4096 .f32) (w : Gain.Idx → EReal)
    (h0 : ∀ (p : Fin 4) (a : Fin 128) (j : Fin 4096), P0 (ix3 p a j) = x (ix3 p (rowOf a) j))
    (h1 : ∀ j : Fin 4096, P1 (ix1 j) = w (ix1 j)) (a : Fin 128) (j : Fin 4096) :
    E2 (F := Ideal) P0 P1 (ix2 a j) = normed x w (ix2 (rowOf a) j) := by
  have i0 : ix2_0 (ix2 a j) = ix2 a j := funext fun d => Fin.ext (by match d with | ⟨0, _⟩ => rfl | ⟨1, _⟩ => rfl)
  have i1 : ix2_1 (ix2 a j) = ix1 a := funext fun d => Fin.ext (by match d with | ⟨0, _⟩ => rfl)
  have i2 : ix2_2 (ix2 a j) = ix1 j := funext fun d => Fin.ext (by match d with | ⟨0, _⟩ => rfl)
  show blockRankSum P0 (ix2_0 (ix2 a j))
      * Ideal.rsqrt (Ideal.div (blockSquareSum P0 (ix2_1 (ix2 a j))) (Ideal.ofBits .f32 0x45800000#32) + Ideal.ofBits .f32 0x358637BD#32)
      * P1 (ix2_2 (ix2 a j))
    = rankSum x (rowOf a) j * Ideal.rsqrt (meanSquare x (rowOf a) + Ideal.ofBits .f32 0x358637BD#32) * w (ix1 j)
  rw [i0, i1, i2, blockRankSum_eq P0 x rowOf h0 a j, blockSquareSum_eq P0 x rowOf h0 a, h1 j]
  rfl

/-- The same at any index `y` of the block, split into its row and its hidden index. -/
theorem stored_at (P1 : FVec Ideal S4096 .f32) (w : Gain.Idx → EReal)
    (h0 : ∀ (p : Fin 4) (a : Fin 128) (j : Fin 4096), P0 (ix3 p a j) = x (ix3 p (rowOf a) j))
    (h1 : ∀ j : Fin 4096, P1 (ix1 j) = w (ix1 j)) (y : S128x4096.Idx) :
    E2 (F := Ideal) P0 P1 y = normed x w (ix2 (rowOf (y 0)) (y 1)) := by
  obtain ⟨a, j, rfl⟩ : ∃ (a : Fin 128) (j : Fin 4096), y = ix2 a j := ⟨y 0, y 1, eq_ix2 y⟩
  exact stored_eq P0 x rowOf P1 w h0 h1 a j

end Cert.KernelIdeal.Block

end
-- ==== Proof.KernelArray.lean ====
/-
  From blocks to the array. Grid point `t` (of 64) fetches tokens `128·t … 128·t + 127` of the activations — every rank, the
  whole hidden axis — and the whole gain, and writes back rows `128·t … 128·t + 127` of the result. By the block lemma what it
  writes back is those rows of `normed` of the argument arrays; row `r` lies in the block of point `r / 128`, so the 64
  blocks cover the result, which therefore ends holding `normed` of the arguments.
-/
import proofs.«127439_j69784628625430_1_alg».proof.Proof.KernelBlock

noncomputable section

namespace Cert.KernelIdeal.Whole

open Cert.KernelIdeal Cert.KernelIdeal.Gen Cert.KernelIdeal.Value Cert.KernelIdeal.Block Cert.ReluSumNorm
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem offsets1 : (![0] : Fin 1 → Nat) = fun _ => 0 := funext fun a => by fin_cases a <;> rfl
theorem offsets3 : (![0, 0, 0] : Fin 3 → Nat) = fun _ => 0 := funext fun a => by fin_cases a <;> rfl

/-- The block each window is on at point `t`: the activations' and the result's move along the token axis with `t`, the
    gain's stays. Decided over the 64 points. -/
theorem block_index : ∀ t : Fin cfg0.N,
    win0_0.index t (0 : Fin 3) = 0 ∧ win0_0.index t (1 : Fin 3) = t.val ∧ win0_0.index t (2 : Fin 3) = 0
    ∧ win0_1.index t (0 : Fin 1) = 0
    ∧ win0_2.index t (0 : Fin 2) = t.val ∧ win0_2.index t (1 : Fin 2) = 0 :=
  (by decide +kernel : ∀ t : Fin grid0.N, _)

/-- The token that row `a` of point `t`'s block is. -/
def tokenOf (t : Fin cfg0.N) (a : Fin 128) : Fin 8192 :=
  ⟨t.val * 128 + a.val, by have ht : t.val < 64 := t.isLt; have ha := a.isLt; omega⟩

/-- The activations' block at point `t` holds tokens `tokenOf t 0 … tokenOf t 127` of the argument array. -/
theorem acts_block (c : Dev nD) (t : Fin cfg0.N) (p : Fin 4) (a : Fin 128) (j : Fin 4096) :
    iblk m c 0 t (ix3 p a j) = V m c main_arg0 (ix3 p (tokenOf t a) j) := by
  obtain ⟨e00, e01, e02, -, -, -⟩ := block_index t
  show V m c main_arg0 (((cfg0.win 0).blk t).view.emb (ix3 p a j)) = _
  refine congrArg (V m c main_arg0) (funext fun d => Fin.ext ?_)
  match d with
  | ⟨0, _⟩ => show win0_0.index t (0 : Fin 3) * 4 + 1 * p.val = p.val; omega
  | ⟨1, _⟩ => show win0_0.index t (1 : Fin 3) * 128 + 1 * a.val = t.val * 128 + a.val; omega
  | ⟨2, _⟩ => show win0_0.index t (2 : Fin 3) * 4096 + 1 * j.val = j.val; omega

/-- The gain's block at every point is the whole gain. -/
theorem gain_block (c : Dev nD) (t : Fin cfg0.N) (j : Fin 4096) :
    iblk m c 1 t (ix1 j) = V m c main_arg1 (ix1 j) := by
  obtain ⟨-, -, -, e10, -, -⟩ := block_index t
  show V m c main_arg1 (((cfg0.win 1).blk t).view.emb (ix1 j)) = _
  refine congrArg (V m c main_arg1) (funext fun d => Fin.ext ?_)
  match d with
  | ⟨0, _⟩ => show win0_1.index t (0 : Fin 1) * 4096 + 1 * j.val = j.val; omega

/-- WHAT POINT `t` WRITES BACK is block `t` of `normed` of the argument arrays. -/
theorem flushed_eq (c : Dev nD) (t : Fin cfg0.N) :
    (dats m 0 c).flushed 2 t
      = ((cfg0.win 2).blk t).view.read (Elt Ideal) (normed (V m c main_arg0) (V m c main_arg1)) := by
  rw [flushed2]
  unfold out0_2
  simp only [View.ld_unit_zero (S := S4x128x4096) offsets3, View.ld_unit_zero (S := S4096) offsets1]
  obtain ⟨-, -, -, -, e20, e21⟩ := block_index t
  funext y
  show View.canon ([⟨r0_2, k0_pay1 (iblk m c 0 t) (iblk m c 1 t)⟩] : List (View.Piece (Elt Ideal) S128x4096 .f32)) y
    = normed (V m c main_arg0) (V m c main_arg1) (((cfg0.win 2).blk t).view.emb y)
  refine (canon2_eq (F := Ideal) (iblk m c 0 t) (iblk m c 1 t) y).trans ?_
  refine (stored_at (iblk m c 0 t) (V m c main_arg0) (tokenOf t) (iblk m c 1 t) (V m c main_arg1)
    (acts_block m c t) (gain_block m c t) y).trans ?_
  refine congrArg (normed (V m c main_arg0) (V m c main_arg1)) (funext fun d => Fin.ext ?_)
  match d with
  | ⟨0, _⟩ => show t.val * 128 + (y 0).val = win0_2.index t (0 : Fin 2) * 128 + 1 * (y 0).val; omega
  | ⟨1, _⟩ => show (y 1).val = win0_2.index t (1 : Fin 2) * 4096 + 1 * (y 1).val; omega

/-- An index of the result is in point `t`'s block iff each coordinate is in the block's range on its axis. -/
theorem mem_block (t : Fin cfg0.N) (i : S8192x4096.Idx) :
    i ∈ ((cfg0.win 2).blk t).view.set ↔ ∀ a : Fin 2, win0_2.index t a * S128x4096.size a ≤ (i a).val
      ∧ (i a).val < win0_2.index t a * S128x4096.size a + S128x4096.size a := by
  show i ∈ ((View.whole main_v0).slice (win0_2.rect t)).set ↔ _
  rw [View.set_slice_whole, Rect.mem_set_unit]
  exact Iff.rfl

/-- Row `r` of the result is written back by point `r / 128`: the blocks cover the array. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have ht : (i 0).val / 128 < 64 := by omega
  obtain ⟨-, -, -, -, e20, e21⟩ := block_index ⟨(i 0).val / 128, ht⟩
  have e20' : win0_2.index ⟨(i 0).val / 128, ht⟩ (0 : Fin 2) = (i 0).val / 128 := e20
  refine ⟨⟨(i 0).val / 128, ht⟩, flush0_2 _, ?_⟩
  rw [mem_block]
  intro a
  match a with
  | ⟨0, _⟩ =>
    show win0_2.index ⟨(i 0).val / 128, ht⟩ (0 : Fin 2) * 128 ≤ (i 0).val
      ∧ (i 0).val < win0_2.index ⟨(i 0).val / 128, ht⟩ (0 : Fin 2) * 128 + 128
    omega
  | ⟨1, _⟩ =>
    show win0_2.index ⟨(i 0).val / 128, ht⟩ (1 : Fin 2) * 4096 ≤ (i 1).val
      ∧ (i 1).val < win0_2.index ⟨(i 0).val / 128, ht⟩ (1 : Fin 2) * 4096 + 4096
    omega

/-- THE RESULT ARRAY after the run is `normed` of the argument arrays. -/
theorem final (c : Dev nD) : (dats m 0 c).arrAt 2 cfg0.N
    = normed (m ((c : Thread nD τ).loc main_arg0)) (m ((c : Thread nD τ).loc main_arg1)) :=
  (dats m 0 c).arrAt_eq_of_cover 2 (normed (V m c main_arg0) (V m c main_arg1)) (fun t _ => flushed_eq m c t) covered

/-- The kernel's run: the result at `normed` of the arguments, the arguments unchanged. -/
theorem run : θ_run defs (onTc (τ := τ) (main (F := Ideal))) ⟨m, fun _ => 0, ρ⟩ fun r => ∀ c : Dev nD,
      r.2.mem ((c : Thread nD τ).loc main_v0)
        = normed (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.ReferenceNormed.lean ====
/-
  The reference's result, read one operation at a time, is `normed` of its two arguments: the host's `maximum` with a
  broadcast zero is the rectifier, its two `reduce add`s from a zero initial value are the sum over the ranks and the row's sum of
  squares, its quotient by the broadcast 4096 the mean, and the two broadcasts of the last products read the row's scale
  at `[r, 0]` and the gain at `[0, j]`.
-/
import proofs.«127439_j69784628625430_1_alg».proof.Proof.Gen.ReferenceIdeal.Read
import proofs.«127439_j69784628625430_1_alg».proof.Proof.ReluSumNorm

noncomputable section

open scoped BigOperators

namespace Cert.ReferenceIdeal.Normed

open Cert.ReferenceIdeal Cert.ReferenceIdeal.Read Idealize.ShloMosaic Idealize.ShloMosaic.ValueIdx Cert.ReluSumNorm

variable (r : Fin 8192) (j : Fin 4096)

/-- The entry a term of the first sum reads: rank `k` of token `r`, hidden index `j`. -/
theorem idx_rank (k : Fin 4) : idx_main_v1 (ix2 r j) k = ix3 k r j :=
  funext fun a => Fin.ext (by match a with | ⟨0, _⟩ => rfl | ⟨1, _⟩ => rfl | ⟨2, _⟩ => rfl)

/-- The entry of row `r` a term of the second sum reads, through the two broadcasts back to the row: `[r, k]`. -/
theorem idx_row (k : Fin 4096) : idx_main_v3 (idx_main_v4 (idx_main_v10 (ix2 r j))) k = ix2 r k :=
  funext fun a => Fin.ext (by match a with | ⟨0, _⟩ => rfl | ⟨1, _⟩ => rfl)

/-- The gain's entry the last product reads: `[j]`. -/
theorem idx_gain : idx_main_v12 (idx_main_v13 (ix2 r j)) = ix1 j :=
  funext fun a => Fin.ext (by match a with | ⟨0, _⟩ => rfl)

/-- The first reduction is the rank sum. -/
theorem rankSum_read (x0 : (⟨S4x8192x4096, .f32⟩ : BufTy).Contents (Elt Ideal)) :
    val_main_v1 (F := Ideal) x0 (ix2 r j) = rankSum x0 r j := by
  rw [val_main_v1_apply]
  simp only [val_main_cst_apply, val_main_v0_apply, val_main_call0_v0_apply, val_main_call0_cst_apply, idx_rank,
    Ideal.ofBits_def, Ideal.maximumf_def, Ideal.ofBits_zero_f32, zero_add]
  rfl

/-- The reference's result is `normed` of its arguments. -/
theorem result_eq (x0 : (⟨S4x8192x4096, .f32⟩ : BufTy).Contents (Elt Ideal)) (x1 : (⟨S4096, .f32⟩ : BufTy).Contents (Elt Ideal)) :
    val_main_v14 (F := Ideal) x0 x1 = normed x0 x1 := by
  funext i
  obtain ⟨r, j, rfl⟩ : ∃ (r : Fin 8192) (j : Fin 4096), i = ix2 r j := ⟨i 0, i 1, eq_ix2 i⟩
  simp only [val_main_v14_apply, val_main_v11_apply, val_main_v13_apply, val_main_v12_apply, val_main_v10_apply,
    val_main_v9_apply, val_main_v8_apply, val_main_v7_apply, val_main_v6_apply, val_main_v5_apply, val_main_v4_apply,
    val_main_v3_apply, val_main_v2_apply, val_main_cst_0_apply, val_main_cst_1_apply, val_main_cst_2_apply, rankSum_read,
    idx_row, idx_gain, Ideal.ofBits_def, Ideal.mulf_def, Ideal.addf_def, Ideal.hostDivf_def, Ideal.hostUnary_rsqrt_def,
    Ideal.ofBits_zero_f32, zero_add]
  rfl

end Cert.ReferenceIdeal.Normed

end
-- ==== Proof.lean ====
/-
  The kernel and its reference compute one function: for activations `x : [4, 8192, 4096]` and a gain `w : [4096]`,

      y[r, j] = (s[r, j] · rsqrt ((∑ j' < 4096, s[r, j']²) / 4096 + ε)) · w[j],   s[r, j] = ∑ p < 4, max (x[p, r, j]) 0

  — rectify each rank's partial activation, sum over the four ranks, normalise each row by the root of its mean square, scale
  by the gain (`Cert.ReluSumNorm.normed`). The reference does it on the whole arrays. The kernel does it 128 tokens at a time
  over a grid of 64 points, each point loading all four ranks and the whole hidden axis of its tokens; a row's sum of squares
  reads only that row, so a block of whole rows is normalised exactly as the whole array is, and the 64 blocks of rows tile
  the result. The two sides take the same sums over the same index sets, divide by the same word 4096, add the same word ε
  and group the two products alike, so no law of arithmetic beyond reading each operation at an index is needed, and the
  finiteness of the inputs is never used.

  The three frames are the generated ones (the two kernels' frame certificates; the reference's run with its result dropped),
  and the idealization rewrote no operation, so `preserves` has nothing to state.
-/
import proofs.«127439_j69784628625430_1_alg».proof.Defs
import proofs.«127439_j69784628625430_1_alg».proof.Proof.Gen.Kernel
import proofs.«127439_j69784628625430_1_alg».proof.Proof.Gen.Kernel.Skeleton
import proofs.«127439_j69784628625430_1_alg».proof.Proof.Gen.Kernel.Launch
import proofs.«127439_j69784628625430_1_alg».proof.Proof.Gen.Kernel.Points
import proofs.«127439_j69784628625430_1_alg».proof.Proof.Gen.Kernel.Frame
import proofs.«127439_j69784628625430_1_alg».proof.Proof.Gen.KernelIdeal
import proofs.«127439_j69784628625430_1_alg».proof.Proof.Gen.KernelIdeal.Skeleton
import proofs.«127439_j69784628625430_1_alg».proof.Proof.Gen.KernelIdeal.Launch
import proofs.«127439_j69784628625430_1_alg».proof.Proof.Gen.KernelIdeal.Points
import proofs.«127439_j69784628625430_1_alg».proof.Proof.Gen.KernelIdeal.Frame
import proofs.«127439_j69784628625430_1_alg».proof.Proof.Gen.ReferenceIdeal
import proofs.«127439_j69784628625430_1_alg».proof.Proof.Gen.Pre_finite_inputs
import proofs.«127439_j69784628625430_1_alg».proof.Proof.Gen.KernelIdeal.Value
import proofs.«127439_j69784628625430_1_alg».proof.Proof.Gen.ReferenceIdeal.Run
import proofs.«127439_j69784628625430_1_alg».proof.Proof.Gen.ReferenceIdeal.Read
import proofs.«127439_j69784628625430_1_alg».proof.Proof.KernelArray
import proofs.«127439_j69784628625430_1_alg».proof.Proof.ReferenceNormed
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with `normed` of the arguments in their result: the kernel
    block by block (`Cert.KernelIdeal.Whole.run`), the reference operation by operation (`Cert.ReferenceIdeal.Normed.result_eq`). -/
theorem algebraic : Cert.algebraic_KernelIdeal_ReferenceIdeal := by
  intro m ρ m' ρ' _ hagree
  refine ⟨fun c => Cert.ReluSumNorm.normed (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.Normed.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
